-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S128x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S128x64 .f32) (main_arg7 : FVec F S64 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S128x64 .f32) (main_arg9 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S400x10000 : Shape := ⟨2, ![400, 10000]⟩
abbrev S400x128 : Shape := ⟨2, ![400, 128]⟩
abbrev S1x64 : Shape := ⟨2, ![1, 64]⟩
abbrev S10000x64 : Shape := ⟨2, ![10000, 64]⟩
abbrev S1000x10000 : Shape := ⟨2, ![1000, 10000]⟩
abbrev S1000x64 : Shape := ⟨2, ![1000, 64]⟩
abbrev S1000x128 : Shape := ⟨2, ![1000, 128]⟩

abbrev nBuf : Space → Nat
  | .hbm => 19
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S10000x128, .f32⟩
  | .hbm, ⟨11, _⟩ => ⟨S1x128, .f32⟩
  | .hbm, ⟨12, _⟩ => ⟨S10000x128, .bf16⟩
  | .hbm, ⟨13, _⟩ => ⟨S10000x10000, .bf16⟩
  | .hbm, ⟨14, _⟩ => ⟨S1x128, .f32⟩
  | .hbm, ⟨15, _⟩ => ⟨S1x64, .f32⟩
  | .hbm, ⟨16, _⟩ => ⟨S1x64, .f32⟩
  | .hbm, ⟨17, _⟩ => ⟨S10000x64, .f32⟩
  | .hbm, ⟨18, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S128x128, .f32⟩
  | .local _ .vmem, ⟨8, _⟩ => ⟨S400x128, .bf16⟩
  | .local _ .vmem, ⟨9, _⟩ => ⟨S400x128, .bf16⟩
  | .local _ .vmem, ⟨10, _⟩ => ⟨S400x10000, .bf16⟩
  | .local _ .vmem, ⟨11, _⟩ => ⟨S400x10000, .bf16⟩
  | .local _ .vmem, ⟨12, _⟩ => ⟨S1000x10000, .bf16⟩
  | .local _ .vmem, ⟨13, _⟩ => ⟨S1000x10000, .bf16⟩
  | .local _ .vmem, ⟨14, _⟩ => ⟨S10000x128, .bf16⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S128x64, .f32⟩
  | .local _ .vmem, ⟨19, _⟩ => ⟨S1x64, .f32⟩
  | .local _ .vmem, ⟨20, _⟩ => ⟨S1000x64, .f32⟩
  | .local _ .vmem, ⟨21, _⟩ => ⟨S1000x64, .f32⟩
  | .local _ .vmem, ⟨22, _⟩ => ⟨S1000x64, .f32⟩
  | .local _ .vmem, ⟨23, _⟩ => ⟨S1000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg8_1 : Ref sig .tc := ⟨.vmem, 23, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc2_sem8_0 : DmaSem sig := 22
abbrev cc2_sem8_1 : DmaSem sig := 23

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  packedbf16_S400x10000_S400x10000_0_0 : (Rect.unit (s := S400x10000) ![0, 0] S400x10000.size inb_S400x10000_S400x10000_0_0).PackedRows (EltTy.packing .bf16)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S64_S1x64 : S64.ShapeCasts S1x64
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S1000x10000_S10000x128_S1000x128_1_0_0_1_n_n_wf : DotDims.WF S1000x10000 S10000x128 S1000x128 [1] [0] [0] [1] [] []
  dot_S1000x128_S128x64_S1000x64_1_0_0_1_n_n_wf : DotDims.WF S1000x128 S128x64 S1000x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1000x64.size a ≤ S10000x64.size a
  hwx2_7 : ∀ i : grid2.Coords, EltTy.bits .f32 = 32 ∨ (Rect.block (s := S10000x64) S1000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1000x64.size a ≤ S10000x64.size a
  hwx2_8 : ∀ i : grid2.Coords, EltTy.bits .f32 = 32 ∨ (Rect.block (s := S10000x64) S1000x64.size (cc2_transform_8 i) (hinb2_8 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S400x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v5) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v6_0) S1000x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v6_1) S1000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S10000x128, .f32⟩
  | .hbm, ⟨25, _⟩ => ⟨S10000x128, .f32⟩
  | .hbm, ⟨26, _⟩ => ⟨S10000x64, .f32⟩
  | .hbm, ⟨27, _⟩ => ⟨S1x64, .f32⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S1x64, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«147340_g9328668967786_cont_9to1c4b_67_14_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«147340_g9328668967786_cont_9to1c4b_67_14_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«147340_g9328668967786_cont_9to1c4b_67_14_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.Spec.lean ====
/-
  A two-layer graph-convolution encoder over a dense adjacency matrix, as plain functions of matrices of extended reals.

  With `x` the `[n, f]` node features, `adj` the `[n, n]` adjacency, and the weights and biases of two hidden layers
  and of an output head, the encoder is

    hidden₁ = max (adj · (x · W₁) + b₁) 0,   hidden₂ = max (adj · (hidden₁ · W₂) + b₂) 0,   head = hidden₂ · Wₒ + bₒ,

  every product a plain row-times-column sum and every bias laid along the rows. A head is computed twice, with two
  pairs `(Wₒ, bₒ)`: the mean and the log-variance of the latent code.

  Everything is stated entry by entry, so an entry `(r, q)` of a layer depends on its left matrix only through that
  matrix's row `r`: a program that works on a block of rows of `adj` at a time computes the same entries as one that
  works on the whole matrix (`product_congr`, and `affine_congr` / `reluAffine_congr` of the bias layer).

  Then each spelling of a layer by a vector program or a host program, as an equation between whole matrices at the
  ideal values.
-/
import proofs.«147340_g9328668967786_cont_9to1c4b_67_14_alg».proof.Proof.LibBiasLayer
import proofs.«147340_g9328668967786_cont_9to1c4b_67_14_alg».proof.Proof.LibPlainDot

noncomputable section

namespace Cert.Encoder

open Idealize.ShloMosaic Idealize.ShloMosaic.ValueIdx Cert.DenseLayer Cert.BiasLayer

variable {a K N : ℕ}

/-! ## The product as a matrix -/

/-- The product `x · w`: at `(r, q)` the sum over `k` of `x (r, k) · w (k, q)`. -/
def product (x : Mat a K) (w : Mat K N) : Mat a N := fun i => prodRow x w (i 0) (i 1)

theorem product_apply (x : Mat a K) (w : Mat K N) (r : Fin a) (q : Fin N) :
    product x w (ix2 r q) = prodRow x w r q := rfl

/-- An entry of the product depends on the left matrix only through the entry's row. -/
theorem product_congr {a' : ℕ} (x : Mat a K) (x' : Mat a' K) (w : Mat K N) (r : Fin a) (r' : Fin a')
    (h : ∀ k, x (ix2 r k) = x' (ix2 r' k)) (q : Fin N) : product x w (ix2 r q) = product x' w (ix2 r' q) := by
  rw [product_apply, product_apply, prodRow_congr x x' w r r' h]

/-! ## The encoder -/

section Encoder

variable {n f h l : ℕ}

/-- The first hidden layer: `max (adj · (x · W₁) + b₁) 0`. -/
def hidden₁ (x : Mat n f) (adj : Mat n n) (W₁ : Mat f h) (b₁ : Row h) : Mat n h :=
  reluAffine adj (product x W₁) b₁

/-- What the second layer aggregates: `hidden₁ · W₂`. -/
def support₂ (x : Mat n f) (adj : Mat n n) (W₁ : Mat f h) (b₁ : Row h) (W₂ : Mat h h) : Mat n h :=
  product (hidden₁ x adj W₁ b₁) W₂

/-- The second hidden layer: `max (adj · (hidden₁ · W₂) + b₂) 0`. -/
def hidden₂ (x : Mat n f) (adj : Mat n n) (W₁ : Mat f h) (b₁ : Row h) (W₂ : Mat h h) (b₂ : Row h) : Mat n h :=
  reluAffine adj (support₂ x adj W₁ b₁ W₂) b₂

/-- An output head over the second hidden layer: `hidden₂ · Wₒ + bₒ`. -/
def head (x : Mat n f) (adj : Mat n n) (W₁ : Mat f h) (b₁ : Row h) (W₂ : Mat h h) (b₂ : Row h)
    (Wₒ : Mat h l) (bₒ : Row l) : Mat n l :=
  affine (hidden₂ x adj W₁ b₁ W₂ b₂) Wₒ bₒ

end Encoder

/-! ## The spellings, as equations between whole matrices -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's matrix product into the zero accumulator is the product. -/
theorem vector_product_eq (hd : PlainDot d) (prec : Option ContractPrecision) :
    matmul d prec x w (constant ⟨2, ![a, N]⟩ .f32 0x00000000#32) = product x w :=
  funext fun i => matmul_zero_apply hd prec x w i

/-- A host program's `dot_general` is the product. -/
theorem host_product_eq (hd : PlainDot d) (prec : Option ContractPrecision) :
    Host.dotGeneral d prec x w = product x w :=
  funext fun i => dotGeneral_apply hd prec .single x w i

/-- A vector program's product plus the bias laid over the rows is the affine layer. -/
theorem vector_affine_eq (hd : PlainDot d) (prec : Option ContractPrecision)
    (hc : (⟨1, ![N]⟩ : Shape).ShapeCasts ⟨2, ![1, N]⟩) (hb : (⟨2, ![1, N]⟩ : Shape).Broadcasts ⟨2, ![a, N]⟩) :
    addf (matmul d prec x w (constant ⟨2, ![a, N]⟩ .f32 0x00000000#32))
        (broadcastTo ⟨2, ![a, N]⟩ (shapeCast ⟨2, ![1, N]⟩ b hc) hb)
      = affine x w b :=
  funext fun i => by
    obtain ⟨r, q, rfl⟩ : ∃ (r : Fin a) (q : Fin N), i = ix2 r q := ⟨i 0, i 1, eq_ix2 i⟩
    exact vector_affine_apply x w b hd prec hc hb r q

/-- Followed by the maximum against a splat of zero it is the clamped layer. -/
theorem vector_reluAffine_eq (hd : PlainDot d) (prec : Option ContractPrecision)
    (hc : (⟨1, ![N]⟩ : Shape).ShapeCasts ⟨2, ![1, N]⟩) (hb : (⟨2, ![1, N]⟩ : Shape).Broadcasts ⟨2, ![a, N]⟩) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32))
      = reluAffine x w b :=
  funext fun i => by
    obtain ⟨r, q, rfl⟩ : ∃ (r : Fin a) (q : Fin N), i = ix2 r q := ⟨i 0, i 1, eq_ix2 i⟩
    exact vector_reluAffine_apply x w b hd prec hc hb r q

/-- A host program's `dot_general` plus the bias laid over the rows is the affine layer. -/
theorem host_affine_eq (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) :
    addf (Host.dotGeneral d prec x w)
        (broadcastInDim ⟨2, ![a, N]⟩ ![0, 1] h2 (broadcastInDim ⟨2, ![1, N]⟩ ![1] h1 b))
      = affine x w b :=
  funext fun i => by
    obtain ⟨r, q, rfl⟩ : ∃ (r : Fin a) (q : Fin N), i = ix2 r q := ⟨i 0, i 1, eq_ix2 i⟩
    exact host_affine_apply x w b hd prec h1 h2 r q

/-- Followed by the maximum against a host splat of zero it is the clamped layer. -/
theorem host_reluAffine_eq (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32))
      = reluAffine x w b :=
  funext fun i => by
    obtain ⟨r, q, rfl⟩ : ∃ (r : Fin a) (q : Fin N), i = ix2 r q := ⟨i 0, i 1, eq_ix2 i⟩
    exact host_reluAffine_apply x w b hd prec h1 h2 h0 r q

end Spellings

end Cert.Encoder

end
-- ==== Proof.Payloads.lean ====
/-
  What each kernel body stores, as a layer of the encoder over the blocks it loaded.

  The first body stores the product of its two operands. The second body stores two things: a copy of its block of
  rows of the adjacency (a change of float format, the identity at the ideal values), and, for that block of rows,
  `max (rows · s + b) 0` times a weight matrix. The third body stores two affine heads of `max (rows · s + b) 0`.
  A change of float format and a shape cast to the same shape are the identity; the bias arrives as a `[1, N]` row,
  the cast of the `[N]` vector the program was given.
-/
import proofs.«147340_g9328668967786_cont_9to1c4b_67_14_alg».proof.Proof.Gen.KernelIdeal.Skeleton
import proofs.«147340_g9328668967786_cont_9to1c4b_67_14_alg».proof.Proof.Spec

noncomputable section

namespace Cert.KernelIdeal.Bridge

open Cert.KernelIdeal Cert.KernelIdeal.Gen Idealize.ShloMosaic Idealize.ShloMosaic.ValueIdx
open Cert.DenseLayer Cert.BiasLayer Cert.Encoder

/-! ## The five contractions are plain products -/

theorem plain_feat : PlainDot dot_S10000x128_S128x128_S10000x128_1_0_0_1_n_n :=
  plainDot_of_axes _ rfl rfl rfl rfl rfl rfl
theorem plain_rows400 : PlainDot dot_S400x10000_S10000x128_S400x128_1_0_0_1_n_n :=
  plainDot_of_axes _ rfl rfl rfl rfl rfl rfl
theorem plain_hid400 : PlainDot dot_S400x128_S128x128_S400x128_1_0_0_1_n_n :=
  plainDot_of_axes _ rfl rfl rfl rfl rfl rfl
theorem plain_rows1000 : PlainDot dot_S1000x10000_S10000x128_S1000x128_1_0_0_1_n_n :=
  plainDot_of_axes _ rfl rfl rfl rfl rfl rfl
theorem plain_head1000 : PlainDot dot_S1000x128_S128x64_S1000x64_1_0_0_1_n_n :=
  plainDot_of_axes _ rfl rfl rfl rfl rfl rfl

/-- A load or a store of a whole buffer starts at the origin. -/
theorem zero_offsets : (![0, 0] : Fin 2 → Nat) = fun _ => 0 := funext fun a => by fin_cases a <;> rfl

/-! ## The payloads -/

/-- The first body stores `x · W₁`. -/
theorem pay_support (x : FVec Ideal S10000x128 .f32) (W : FVec Ideal S128x128 .f32) :
    k0_pay1 (F := Ideal) x W = product x W :=
  vector_product_eq x W plain_feat none

/-- The second body's copy of its rows of the adjacency is those rows. -/
theorem pay_copy (rows : FVec Ideal S400x10000 .f32) : k1_pay1 (F := Ideal) rows = rows := rfl

/-- The second body stores `max (rows · s + b) 0 · W`. -/
theorem pay_layer1 (rows : FVec Ideal S400x10000 .f32) (s : FVec Ideal S10000x128 .f32) (b : Row 128)
    (W : FVec Ideal S128x128 .f32) :
    k1_pay2 (F := Ideal) rows s (shapeCast S1x128 b shapeCasts_S128_S1x128) W = product (reluAffine rows s b) W := by
  show matmul dot_S400x128_S128x128_S400x128_1_0_0_1_n_n none
      (maximumf (addf (matmul dot_S400x10000_S10000x128_S400x128_1_0_0_1_n_n none rows
          (shapeCast S10000x128 s shapeCasts_S10000x128_S10000x128) (constant S400x128 .f32 0x00000000#32))
        (broadcastTo S400x128 (shapeCast S1x128 (shapeCast S1x128 b shapeCasts_S128_S1x128) shapeCasts_S1x128_S1x128)
          broadcasts_S1x128_S400x128))
        (broadcast S400x128 (Scalar.ofBits (F := Ideal) .f32 0x00000000#32)))
      W (constant S400x128 .f32 0x00000000#32) = _
  rw [shapeCast_self, shapeCast_self,
    vector_reluAffine_eq rows s b plain_rows400 none shapeCasts_S128_S1x128 broadcasts_S1x128_S400x128,
    vector_product_eq (reluAffine rows s b) W plain_hid400 none]

/-- The third body's hidden block: `max (rows · s + b) 0`. -/
theorem pay_hidden2 (rows : FVec Ideal S1000x10000 .bf16) (s : FVec Ideal S10000x128 .bf16) (b : Row 128) :
    k2_pay1 (F := Ideal) rows s (shapeCast S1x128 b shapeCasts_S128_S1x128) = reluAffine rows s b := by
  show maximumf (addf (matmul dot_S1000x10000_S10000x128_S1000x128_1_0_0_1_n_n none
          (shapeCast S1000x10000 rows shapeCasts_S1000x10000_S1000x10000)
          (shapeCast S10000x128 s shapeCasts_S10000x128_S10000x128) (constant S1000x128 .f32 0x00000000#32))
        (broadcastTo S1000x128 (shapeCast S1x128 (shapeCast S1x128 b shapeCasts_S128_S1x128) shapeCasts_S1x128_S1x128)
          broadcasts_S1x128_S1000x128))
        (broadcast S1000x128 (Scalar.ofBits (F := Ideal) .f32 0x00000000#32)) = _
  rw [shapeCast_self, shapeCast_self, shapeCast_self,
    vector_reluAffine_eq rows s b plain_rows1000 none shapeCasts_S128_S1x128 broadcasts_S1x128_S1000x128]

/-- The third body's first store: the head `max (rows · s + b) 0 · Wₒ + bₒ`. -/
theorem pay_head_a (rows : FVec Ideal S1000x10000 .bf16) (s : FVec Ideal S10000x128 .bf16) (b : Row 128)
    (Wₒ : FVec Ideal S128x64 .f32) (bₒ : Row 64) :
    k2_pay2 (F := Ideal) rows s (shapeCast S1x128 b shapeCasts_S128_S1x128) Wₒ (shapeCast S1x64 bₒ shapeCasts_S64_S1x64)
      = affine (reluAffine rows s b) Wₒ bₒ := by
  show addf (matmul dot_S1000x128_S128x64_S1000x64_1_0_0_1_n_n none
        (k2_pay1 (F := Ideal) rows s (shapeCast S1x128 b shapeCasts_S128_S1x128)) Wₒ (constant S1000x64 .f32 0x00000000#32))
      (broadcastTo S1000x64 (shapeCast S1x64 (shapeCast S1x64 bₒ shapeCasts_S64_S1x64) shapeCasts_S1x64_S1x64)
        broadcasts_S1x64_S1000x64) = _
  rw [shapeCast_self, pay_hidden2,
    vector_affine_eq (reluAffine rows s b) Wₒ bₒ plain_head1000 none shapeCasts_S64_S1x64 broadcasts_S1x64_S1000x64]

/-- The third body's second store: the same head with the other weights. -/
theorem pay_head_b (rows : FVec Ideal S1000x10000 .bf16) (s : FVec Ideal S10000x128 .bf16) (b : Row 128)
    (Wₒ : FVec Ideal S128x64 .f32) (bₒ : Row 64) :
    k2_pay3 (F := Ideal) rows s (shapeCast S1x128 b shapeCasts_S128_S1x128) Wₒ (shapeCast S1x64 bₒ shapeCasts_S64_S1x64)
      = affine (reluAffine rows s b) Wₒ bₒ := by
  show addf (matmul dot_S1000x128_S128x64_S1000x64_1_0_0_1_n_n none
        (k2_pay1 (F := Ideal) rows s (shapeCast S1x128 b shapeCasts_S128_S1x128)) Wₒ (constant S1000x64 .f32 0x00000000#32))
      (broadcastTo S1000x64 (shapeCast S1x64 (shapeCast S1x64 bₒ shapeCasts_S64_S1x64) shapeCasts_S1x64_S1x64)
        broadcasts_S1x64_S1000x64) = _
  rw [shapeCast_self, pay_hidden2,
    vector_affine_eq (reluAffine rows s b) Wₒ bₒ plain_head1000 none shapeCasts_S64_S1x64 broadcasts_S1x64_S1000x64]

end Cert.KernelIdeal.Bridge

end
-- ==== Proof.Region0.lean ====
/-
  The first kernel region: one grid point, every window its whole array. Whatever the buffers hold when the region is
  entered (`V`), it leaves in its result array the product of the node features with the first weight matrix.

  The one block of each window is the whole array (block index zero on both axes), the body stores the product of the
  two blocks it loaded over its whole output buffer, and that one block covers the result array.
-/
import proofs.«147340_g9328668967786_cont_9to1c4b_67_14_alg».proof.Proof.Gen.KernelIdeal.Frame
import proofs.«147340_g9328668967786_cont_9to1c4b_67_14_alg».proof.Proof.Payloads
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)
open Cert.DenseLayer Cert.BiasLayer Cert.Encoder

variable (V : (c : Dev nD) → (b : Ref sig .tc) → Buf (Elt Ideal) ((c : Thread nD τ).loc b))

/-- Every block index of the region's three windows is zero. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of the features is the whole features array. -/
theorem blk0_feat (c : Dev nD) (t : Fin cfg0.N) : iblk0 V c 0 t = V c main_arg0 := by
  funext y
  show V c main_arg0 (((cfg0.win 0).blk t).view.emb y) = V c main_arg0 y
  refine congrArg _ ?_
  obtain ⟨e0, e1, -⟩ := idx0 t
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The block of the weights is the whole weight matrix. -/
theorem blk0_weight (c : Dev nD) (t : Fin cfg0.N) : iblk0 V c 1 t = V c main_arg2 := by
  funext y
  show V c main_arg2 (((cfg0.win 1).blk t).view.emb y) = V c main_arg2 y
  refine congrArg _ ?_
  obtain ⟨-, -, e0, e1, -⟩ := idx0 t
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the point writes back is its block of `x · W₁`. -/
theorem flushed_support (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  rw [blk0_feat V c t, blk0_weight V c t, pay_support]
  funext j
  have hj0 : (j 0).val < 10000 := (j 0).isLt
  have hj1 : (j 1).val < 128 := (j 1).isLt
  obtain ⟨-, -, -, -, e0, e1⟩ := idx0 t
  have hemb : ((cfg0.win 2).blk t).view.emb j = ix2 (⟨(j 0).val, hj0⟩ : Fin 10000) (⟨(j 1).val, hj1⟩ : Fin 128) := by
    funext a; apply Fin.ext
    match a with
    | ⟨0, _⟩ => show win0_2.index t (0 : Fin 2) * 10000 + 1 * (j 0).val = (j 0).val; omega
    | ⟨1, _⟩ => show win0_2.index t (1 : Fin 2) * 128 + 1 * (j 1).val = (j 1).val; omega
  show product (V c main_arg0) (V c main_arg2) (ix2 (⟨(j 0).val, hj0⟩ : Fin 10000) (⟨(j 1).val, hj1⟩ : Fin 128))
    = product (V c main_arg0) (V c main_arg2) (((cfg0.win 2).blk t).view.emb j)
  rw [hemb]

/-- An index of the result array is in the point's block iff each coordinate is in the block's range. -/
theorem mem_blk_support (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- The one block covers the result array. -/
theorem cover_support (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  refine ⟨⟨0, by decide⟩, flush0_2 _, ?_⟩
  rw [mem_blk_support]
  obtain ⟨-, -, -, -, e0, e1⟩ := idx0 ⟨0, by decide⟩
  intro a
  match a with
  | ⟨0, _⟩ =>
    show win0_2.index ⟨0, _⟩ (0 : Fin 2) * 10000 ≤ (i 0).val ∧ (i 0).val < win0_2.index ⟨0, _⟩ (0 : Fin 2) * 10000 + 10000
    omega
  | ⟨1, _⟩ =>
    show win0_2.index ⟨0, _⟩ (1 : Fin 2) * 128 ≤ (i 1).val ∧ (i 1).val < win0_2.index ⟨0, _⟩ (1 : Fin 2) * 128 + 128
    omega

/-- THE REGION'S RESULT: the array ends holding `x · W₁` of the arrays as the region found them. -/
theorem arr_support (c : Dev nD) :
    (dat0 V c).arrAt 2 cfg0.N = product (V c main_arg0) (V c main_arg2) :=
  (dat0 V c).arrAt_eq_of_cover 2 _ (fun t _ => flushed_support V c t) cover_support

end Cert.KernelIdeal.Bridge

end
-- ==== Proof.Region1.lean ====
/-
  The second kernel region: 25 grid points, point `t` working on rows `400 t … 400 t + 399` of the adjacency.
  Whatever the buffers hold when the region is entered (`V`) — `s` in the first region's result array, the bias as a
  `[1, 128]` row that is the cast of a vector `b` — it leaves in its first result array
  `max (adj · s + b) 0 · W₂` and in its second a copy of the adjacency.

  The support matrix, the bias row and the weights are windows of one whole-array block (block index zero); the
  adjacency and the two results move with the point, 400 rows at a time. An entry `(r, q)` of the layer depends on the
  adjacency only through its row `r`, which lies in the block of point `r / 400`; the 25 blocks cover all 10000 rows.
-/
import proofs.«147340_g9328668967786_cont_9to1c4b_67_14_alg».proof.Proof.Gen.KernelIdeal.Frame
import proofs.«147340_g9328668967786_cont_9to1c4b_67_14_alg».proof.Proof.Payloads
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)
open Cert.DenseLayer Cert.BiasLayer Cert.Encoder

variable (V : (c : Dev nD) → (b : Ref sig .tc) → Buf (Elt Ideal) ((c : Thread nD τ).loc b))

/-- The block indices of the region's six windows at point `t`: the adjacency and the two results at row block `t`,
    the others at zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The block of the support matrix is the whole matrix. -/
theorem blk1_support (c : Dev nD) (t : Fin cfg1.N) : iblk1 V c 1 t = V c main_v0 := by
  funext y
  show V c main_v0 (((cfg1.win 1).blk t).view.emb y) = V c main_v0 y
  refine congrArg _ ?_
  obtain ⟨-, -, e0, e1, -⟩ := idx1 t
  funext a; apply Fin.ext
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- The block of the bias row is the whole row. -/
theorem blk1_bias (c : Dev nD) (t : Fin cfg1.N) : iblk1 V c 2 t = V c main_v1 := by
  funext y
  show V c main_v1 (((cfg1.win 2).blk t).view.emb y) = V c main_v1 y
  refine congrArg _ ?_
  obtain ⟨-, -, -, -, e0, e1, -⟩ := idx1 t
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- The block of the weights is the whole weight matrix. -/
theorem blk1_weight (c : Dev nD) (t : Fin cfg1.N) : iblk1 V c 3 t = V c main_arg4 := by
  funext y
  show V c main_arg4 (((cfg1.win 3).blk t).view.emb y) = V c main_arg4 y
  refine congrArg _ ?_
  obtain ⟨-, -, -, -, -, -, e0, e1, -⟩ := idx1 t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Row `p` of the adjacency's block at point `t` is row `400 t + p` of the adjacency. -/
theorem rows1_apply (c : Dev nD) (t : Fin cfg1.N) (p : Fin 400) (k : Fin 10000) (h : t.val * 400 + p.val < 10000) :
    (iblk1 V c 0 t : FVec Ideal S400x10000 .f32) (ix2 p k)
      = V c main_arg1 (ix2 (⟨t.val * 400 + p.val, h⟩ : Fin 10000) k) := by
  show V c main_arg1 (((cfg1.win 0).blk t).view.emb (ix2 p k)) = _
  refine congrArg _ ?_
  obtain ⟨e0, e1, -⟩ := idx1 t
  funext a; apply Fin.ext
  match a with
  | ⟨0, _⟩ => show win1_0.index t (0 : Fin 2) * 400 + 1 * p.val = t.val * 400 + p.val; omega
  | ⟨1, _⟩ => show win1_0.index t (1 : Fin 2) * 10000 + 1 * k.val = k.val; omega

/-! ## The first result: the layer times the second weights -/

/-- What point `t` writes back to the first result is its block of `max (adj · s + b) 0 · W₂`. -/
theorem flushed_layer1 (c : Dev nD) (t : Fin cfg1.N) (b : Row 128)
    (hb : V c main_v1 = shapeCast S1x128 b shapeCasts_S128_S1x128) :
    (dat1 V c).flushed 4 t = ((cfg1.win 4).blk t).view.read (Elt Ideal)
      (product (reluAffine (V c main_arg1) (V c main_v0) b) (V c main_arg4)) := by
  show (cfg1.win 4).cut (grid1.coords t) ((dat1 V c).after 4 t) = _
  rw [after1_4]
  unfold out1_4
  rw [View.canon_unit_zero zero_offsets]
  simp only [View.ld_unit_zero (S := S400x10000) zero_offsets, View.ld_unit_zero (S := S10000x128) zero_offsets,
    View.ld_unit_zero (S := S1x128) zero_offsets, View.ld_unit_zero (S := S128x128) zero_offsets]
  rw [blk1_support V c t, blk1_bias V c t, blk1_weight V c t, hb, pay_layer1]
  funext j
  have hj0 : (j 0).val < 400 := (j 0).isLt
  have hj1 : (j 1).val < 128 := (j 1).isLt
  have ht : t.val < 25 := t.isLt
  obtain ⟨-, -, -, -, -, -, -, -, e0, e1, -⟩ := idx1 t
  have hemb : ((cfg1.win 4).blk t).view.emb j
      = ix2 (⟨t.val * 400 + (j 0).val, by omega⟩ : Fin 10000) (⟨(j 1).val, hj1⟩ : Fin 128) := by
    funext a; apply Fin.ext
    match a with
    | ⟨0, _⟩ => show win1_4.index t (0 : Fin 2) * 400 + 1 * (j 0).val = t.val * 400 + (j 0).val; omega
    | ⟨1, _⟩ => show win1_4.index t (1 : Fin 2) * 128 + 1 * (j 1).val = (j 1).val; omega
  show product (reluAffine (iblk1 V c 0 t) (V c main_v0) b) (V c main_arg4)
      (ix2 (⟨(j 0).val, hj0⟩ : Fin 400) (⟨(j 1).val, hj1⟩ : Fin 128))
    = product (reluAffine (V c main_arg1) (V c main_v0) b) (V c main_arg4) (((cfg1.win 4).blk t).view.emb j)
  rw [hemb]
  refine product_congr _ _ _ _ _ (fun k => ?_) _
  refine reluAffine_congr _ _ _ _ _ _ (fun k' => ?_) k
  exact rows1_apply V c t _ k' _

/-- An index of the first result is in point `t`'s block iff each coordinate is in the block's range. -/
theorem mem_blk_layer1 (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v2_0).slice (win1_4.rect t)).set ↔ _
  rw [View.set_slice_whole, Rect.mem_set_unit]
  exact Iff.rfl

/-- Row `r` of the first result is in the block of point `r / 400`. -/
theorem cover_layer1 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have ht : (i 0).val / 400 < 25 := by omega
  refine ⟨⟨(i 0).val / 400, ht⟩, flush1_4 _, ?_⟩
  rw [mem_blk_layer1]
  obtain ⟨-, -, -, -, -, -, -, -, e0, e1, -⟩ := idx1 ⟨(i 0).val / 400, ht⟩
  have e0' : win1_4.index ⟨(i 0).val / 400, ht⟩ (0 : Fin 2) = (i 0).val / 400 := e0
  intro a
  match a with
  | ⟨0, _⟩ =>
    show win1_4.index ⟨(i 0).val / 400, ht⟩ (0 : Fin 2) * 400 ≤ (i 0).val
      ∧ (i 0).val < win1_4.index ⟨(i 0).val / 400, ht⟩ (0 : Fin 2) * 400 + 400
    omega
  | ⟨1, _⟩ =>
    show win1_4.index ⟨(i 0).val / 400, ht⟩ (1 : Fin 2) * 128 ≤ (i 1).val
      ∧ (i 1).val < win1_4.index ⟨(i 0).val / 400, ht⟩ (1 : Fin 2) * 128 + 128
    omega

/-- THE REGION'S FIRST RESULT: the array ends holding `max (adj · s + b) 0 · W₂` of the arrays as the region found
    them. -/
theorem arr_layer1 (c : Dev nD) (b : Row 128) (hb : V c main_v1 = shapeCast S1x128 b shapeCasts_S128_S1x128) :
    (dat1 V c).arrAt 4 cfg1.N = product (reluAffine (V c main_arg1) (V c main_v0) b) (V c main_arg4) :=
  (dat1 V c).arrAt_eq_of_cover 4 _ (fun t _ => flushed_layer1 V c t b hb) cover_layer1

/-! ## The second result: the adjacency again -/

/-- What point `t` writes back to the second result is its block of the adjacency. -/
theorem flushed_copy (c : Dev nD) (t : Fin cfg1.N) :
    (dat1 V c).flushed 5 t = ((cfg1.win 5).blk t).view.read (Elt Ideal) (V c main_arg1) := by
  show (cfg1.win 5).cut (grid1.coords t) ((dat1 V c).after 5 t) = _
  rw [after1_5]
  unfold out1_5
  rw [View.canon_unit_zero zero_offsets]
  simp only [View.ld_unit_zero (S := S400x10000) zero_offsets]
  rw [pay_copy]
  funext j
  obtain ⟨a0, a1, -, -, -, -, -, -, -, -, e0, e1⟩ := idx1 t
  show V c main_arg1 (((cfg1.win 0).blk t).view.emb j) = V c main_arg1 (((cfg1.win 5).blk t).view.emb j)
  refine congrArg _ ?_
  funext a; apply Fin.ext
  match a with
  | ⟨0, _⟩ =>
    show win1_0.index t (0 : Fin 2) * 400 + 1 * (j 0).val = win1_5.index t (0 : Fin 2) * 400 + 1 * (j 0).val
    omega
  | ⟨1, _⟩ =>
    show win1_0.index t (1 : Fin 2) * 10000 + 1 * (j 1).val = win1_5.index t (1 : Fin 2) * 10000 + 1 * (j 1).val
    omega

/-- An index of the second result is in point `t`'s block iff each coordinate is in the block's range. -/
theorem mem_blk_copy (t : Fin cfg1.N) (i : S10000x10000.Idx) :
    i ∈ ((cfg1.win 5).blk t).view.set ↔ ∀ a : Fin 2, win1_5.index t a * S400x10000.size a ≤ (i a).val
      ∧ (i a).val < win1_5.index t a * S400x10000.size a + S400x10000.size a := by
  show i ∈ ((View.whole main_v2_1).slice (win1_5.rect t)).set ↔ _
  rw [View.set_slice_whole, Rect.mem_set_unit]
  exact Iff.rfl

/-- Row `r` of the second result is in the block of point `r / 400`. -/
theorem cover_copy (i : S10000x10000.Idx) :
    ∃ t : Fin cfg1.N, (cfg1.win 5).flush t = true ∧ i ∈ ((cfg1.win 5).blk t).view.set := by
  have hi0 : (i 0).val < 10000 := (i 0).isLt
  have hi1 : (i 1).val < 10000 := (i 1).isLt
  have ht : (i 0).val / 400 < 25 := by omega
  refine ⟨⟨(i 0).val / 400, ht⟩, flush1_5 _, ?_⟩
  rw [mem_blk_copy]
  obtain ⟨-, -, -, -, -, -, -, -, -, -, e0, e1⟩ := idx1 ⟨(i 0).val / 400, ht⟩
  have e0' : win1_5.index ⟨(i 0).val / 400, ht⟩ (0 : Fin 2) = (i 0).val / 400 := e0
  intro a
  match a with
  | ⟨0, _⟩ =>
    show win1_5.index ⟨(i 0).val / 400, ht⟩ (0 : Fin 2) * 400 ≤ (i 0).val
      ∧ (i 0).val < win1_5.index ⟨(i 0).val / 400, ht⟩ (0 : Fin 2) * 400 + 400
    omega
  | ⟨1, _⟩ =>
    show win1_5.index ⟨(i 0).val / 400, ht⟩ (1 : Fin 2) * 10000 ≤ (i 1).val
      ∧ (i 1).val < win1_5.index ⟨(i 0).val / 400, ht⟩ (1 : Fin 2) * 10000 + 10000
    omega

/-- THE REGION'S SECOND RESULT: the array ends holding the adjacency as the region found it. -/
theorem arr_copy (c : Dev nD) : (dat1 V c).arrAt 5 cfg1.N = V c main_arg1 :=
  (dat1 V c).arrAt_eq_of_cover 5 _ (fun t _ => flushed_copy V c t) cover_copy

end Cert.KernelIdeal.Bridge

end
-- ==== Proof.Region2.lean ====
/-
  The third kernel region: 10 grid points, point `t` working on rows `1000 t … 1000 t + 999` of the adjacency's copy.
  Whatever the buffers hold when the region is entered (`V`) — the adjacency in the copy, `s` in the second region's
  first result, the three biases as `[1, N]` rows that are casts of vectors — it leaves in its two result arrays the
  two output heads `max (adj · s + b) 0 · Wₒ + bₒ`.

  Every operand but the adjacency is a window of one whole-array block (block index zero); the adjacency and the two
  results move with the point, 1000 rows at a time. An entry `(r, q)` of a head depends on the adjacency only through
  its row `r`, which lies in the block of point `r / 1000`; the 10 blocks cover all 10000 rows.
-/
import proofs.«147340_g9328668967786_cont_9to1c4b_67_14_alg».proof.Proof.Gen.KernelIdeal.Frame
import proofs.«147340_g9328668967786_cont_9to1c4b_67_14_alg».proof.Proof.Payloads
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)
open Cert.DenseLayer Cert.BiasLayer Cert.Encoder

variable (V : (c : Dev nD) → (b : Ref sig .tc) → Buf (Elt Ideal) ((c : Thread nD τ).loc b))

/-- The block indices of the region's nine windows at point `t`: the adjacency and the two results at row block `t`,
    the others at zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The block of the support matrix is the whole matrix. -/
theorem blk2_support (c : Dev nD) (t : Fin cfg2.N) : iblk2 V c 1 t = V c main_v2_0 := by
  funext y
  show V c main_v2_0 (((cfg2.win 1).blk t).view.emb y) = V c main_v2_0 y
  refine congrArg _ ?_
  obtain ⟨-, -, e0, e1, -⟩ := idx2 t
  funext a; apply Fin.ext
  match a with
  | ⟨0, _⟩ => show win2_1.index t (0 : Fin 2) * 10000 + 1 * (y 0).val = (y 0).val; omega
  | ⟨1, _⟩ => show win2_1.index t (1 : Fin 2) * 128 + 1 * (y 1).val = (y 1).val; omega

/-- The block of the hidden layer's bias row is the whole row. -/
theorem blk2_bias (c : Dev nD) (t : Fin cfg2.N) : iblk2 V c 2 t = V c main_v3 := by
  funext y
  show V c main_v3 (((cfg2.win 2).blk t).view.emb y) = V c main_v3 y
  refine congrArg _ ?_
  obtain ⟨-, -, -, -, e0, e1, -⟩ := idx2 t
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The block of the first head's weights is the whole weight matrix. -/
theorem blk2_weight_a (c : Dev nD) (t : Fin cfg2.N) : iblk2 V c 3 t = V c main_arg6 := by
  funext y
  show V c main_arg6 (((cfg2.win 3).blk t).view.emb y) = V c main_arg6 y
  refine congrArg _ ?_
  obtain ⟨-, -, -, -, -, -, e0, e1, -⟩ := idx2 t
  funext a; apply Fin.ext
  match a with
  | ⟨0, _⟩ => show win2_3.index t (0 : Fin 2) * 128 + 1 * (y 0).val = (y 0).val; omega
  | ⟨1, _⟩ => show win2_3.index t (1 : Fin 2) * 64 + 1 * (y 1).val = (y 1).val; omega

/-- The block of the first head's bias row is the whole row. -/
theorem blk2_bias_a (c : Dev nD) (t : Fin cfg2.N) : iblk2 V c 4 t = V c main_v4 := by
  funext y
  show V c main_v4 (((cfg2.win 4).blk t).view.emb y) = V c main_v4 y
  refine congrArg _ ?_
  obtain ⟨-, -, -, -, -, -, -, -, e0, e1, -⟩ := idx2 t
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- The block of the second head's weights is the whole weight matrix. -/
theorem blk2_weight_b (c : Dev nD) (t : Fin cfg2.N) : iblk2 V c 5 t = V c main_arg8 := by
  funext y
  show V c main_arg8 (((cfg2.win 5).blk t).view.emb y) = V c main_arg8 y
  refine congrArg _ ?_
  obtain ⟨-, -, -, -, -, -, -, -, -, -, e0, e1, -⟩ := idx2 t
  funext a; apply Fin.ext
  match a with
  | ⟨0, _⟩ => show win2_5.index t (0 : Fin 2) * 128 + 1 * (y 0).val = (y 0).val; omega
  | ⟨1, _⟩ => show win2_5.index t (1 : Fin 2) * 64 + 1 * (y 1).val = (y 1).val; omega

/-- The block of the second head's bias row is the whole row. -/
theorem blk2_bias_b (c : Dev nD) (t : Fin cfg2.N) : iblk2 V c 6 t = V c main_v5 := by
  funext y
  show V c main_v5 (((cfg2.win 6).blk t).view.emb y) = V c main_v5 y
  refine congrArg _ ?_
  obtain ⟨-, -, -, -, -, -, -, -, -, -, -, -, e0, e1, -⟩ := idx2 t
  funext a; apply Fin.ext
  match a with
  | ⟨0, _⟩ => show win2_6.index t (0 : Fin 2) * 1 + 1 * (y 0).val = (y 0).val; omega
  | ⟨1, _⟩ => show win2_6.index t (1 : Fin 2) * 64 + 1 * (y 1).val = (y 1).val; omega

/-- Row `p` of the adjacency's block at point `t` is row `1000 t + p` of the adjacency's copy. -/
theorem rows2_apply (c : Dev nD) (t : Fin cfg2.N) (p : Fin 1000) (k : Fin 10000) (h : t.val * 1000 + p.val < 10000) :
    (iblk2 V c 0 t : FVec Ideal S1000x10000 .bf16) (ix2 p k)
      = V c main_v2_1 (ix2 (⟨t.val * 1000 + p.val, h⟩ : Fin 10000) k) := by
  show V c main_v2_1 (((cfg2.win 0).blk t).view.emb (ix2 p k)) = _
  refine congrArg _ ?_
  obtain ⟨e0, e1, -⟩ := idx2 t
  funext a; apply Fin.ext
  match a with
  | ⟨0, _⟩ => show win2_0.index t (0 : Fin 2) * 1000 + 1 * p.val = t.val * 1000 + p.val; omega
  | ⟨1, _⟩ => show win2_0.index t (1 : Fin 2) * 10000 + 1 * k.val = k.val; omega

/-! ## The first head -/

/-- What point `t` writes back to the first result is its block of `max (adj · s + b) 0 · Wₐ + bₐ`. -/
theorem flushed_head_a (c : Dev nD) (t : Fin cfg2.N) (b : Row 128)
    (hb : V c main_v3 = shapeCast S1x128 b shapeCasts_S128_S1x128) (bₒ : Row 64)
    (hbₒ : V c main_v4 = shapeCast S1x64 bₒ shapeCasts_S64_S1x64) :
    (dat2 V c).flushed 7 t = ((cfg2.win 7).blk t).view.read (Elt Ideal)
      (affine (reluAffine (V c main_v2_1) (V c main_v2_0) b) (V c main_arg6) bₒ) := by
  show (cfg2.win 7).cut (grid2.coords t) ((dat2 V c).after 7 t) = _
  rw [after2_7]
  unfold out2_7
  rw [View.canon_unit_zero zero_offsets]
  simp only [View.ld_unit_zero (S := S1000x10000) zero_offsets, View.ld_unit_zero (S := S10000x128) zero_offsets,
    View.ld_unit_zero (S := S1x128) zero_offsets, View.ld_unit_zero (S := S128x64) zero_offsets,
    View.ld_unit_zero (S := S1x64) zero_offsets]
  rw [blk2_support V c t, blk2_bias V c t, blk2_weight_a V c t, blk2_bias_a V c t, hb, hbₒ, pay_head_a]
  funext j
  have hj0 : (j 0).val < 1000 := (j 0).isLt
  have hj1 : (j 1).val < 64 := (j 1).isLt
  have ht : t.val < 10 := t.isLt
  obtain ⟨-, -, -, -, -, -, -, -, -, -, -, -, -, -, e0, e1, -⟩ := idx2 t
  have hemb : ((cfg2.win 7).blk t).view.emb j
      = ix2 (⟨t.val * 1000 + (j 0).val, by omega⟩ : Fin 10000) (⟨(j 1).val, hj1⟩ : Fin 64) := by
    funext a; apply Fin.ext
    match a with
    | ⟨0, _⟩ => show win2_7.index t (0 : Fin 2) * 1000 + 1 * (j 0).val = t.val * 1000 + (j 0).val; omega
    | ⟨1, _⟩ => show win2_7.index t (1 : Fin 2) * 64 + 1 * (j 1).val = (j 1).val; omega
  show affine (reluAffine (iblk2 V c 0 t) (V c main_v2_0) b) (V c main_arg6) bₒ
      (ix2 (⟨(j 0).val, hj0⟩ : Fin 1000) (⟨(j 1).val, hj1⟩ : Fin 64))
    = affine (reluAffine (V c main_v2_1) (V c main_v2_0) b) (V c main_arg6) bₒ (((cfg2.win 7).blk t).view.emb j)
  rw [hemb]
  refine affine_congr _ _ _ _ _ _ (fun k => ?_) _
  refine reluAffine_congr _ _ _ _ _ _ (fun k' => ?_) k
  exact rows2_apply V c t _ k' _

/-- An index of the first result is in point `t`'s block iff each coordinate is in the block's range. -/
theorem mem_blk_head_a (t : Fin cfg2.N) (i : S10000x64.Idx) :
    i ∈ ((cfg2.win 7).blk t).view.set ↔ ∀ a : Fin 2, win2_7.index t a * S1000x64.size a ≤ (i a).val
      ∧ (i a).val < win2_7.index t a * S1000x64.size a + S1000x64.size a := by
  show i ∈ ((View.whole main_v6_0).slice (win2_7.rect t)).set ↔ _
  rw [View.set_slice_whole, Rect.mem_set_unit]
  exact Iff.rfl

/-- Row `r` of the first result is in the block of point `r / 1000`. -/
theorem cover_head_a (i : S10000x64.Idx) :
    ∃ t : Fin cfg2.N, (cfg2.win 7).flush t = true ∧ i ∈ ((cfg2.win 7).blk t).view.set := by
  have hi0 : (i 0).val < 10000 := (i 0).isLt
  have hi1 : (i 1).val < 64 := (i 1).isLt
  have ht : (i 0).val / 1000 < 10 := by omega
  refine ⟨⟨(i 0).val / 1000, ht⟩, flush2_7 _, ?_⟩
  rw [mem_blk_head_a]
  obtain ⟨-, -, -, -, -, -, -, -, -, -, -, -, -, -, e0, e1, -⟩ := idx2 ⟨(i 0).val / 1000, ht⟩
  have e0' : win2_7.index ⟨(i 0).val / 1000, ht⟩ (0 : Fin 2) = (i 0).val / 1000 := e0
  intro a
  match a with
  | ⟨0, _⟩ =>
    show win2_7.index ⟨(i 0).val / 1000, ht⟩ (0 : Fin 2) * 1000 ≤ (i 0).val
      ∧ (i 0).val < win2_7.index ⟨(i 0).val / 1000, ht⟩ (0 : Fin 2) * 1000 + 1000
    omega
  | ⟨1, _⟩ =>
    show win2_7.index ⟨(i 0).val / 1000, ht⟩ (1 : Fin 2) * 64 ≤ (i 1).val
      ∧ (i 1).val < win2_7.index ⟨(i 0).val / 1000, ht⟩ (1 : Fin 2) * 64 + 64
    omega

/-- THE REGION'S FIRST RESULT: the array ends holding the head `max (adj · s + b) 0 · Wₐ + bₐ` of the arrays as the
    region found them. -/
theorem arr_head_a (c : Dev nD) (b : Row 128) (hb : V c main_v3 = shapeCast S1x128 b shapeCasts_S128_S1x128)
    (bₒ : Row 64) (hbₒ : V c main_v4 = shapeCast S1x64 bₒ shapeCasts_S64_S1x64) :
    (dat2 V c).arrAt 7 cfg2.N = affine (reluAffine (V c main_v2_1) (V c main_v2_0) b) (V c main_arg6) bₒ :=
  (dat2 V c).arrAt_eq_of_cover 7 _ (fun t _ => flushed_head_a V c t b hb bₒ hbₒ) cover_head_a

/-! ## The second head -/

/-- What point `t` writes back to the second result is its block of `max (adj · s + b) 0 · W_b + b_b`. -/
theorem flushed_head_b (c : Dev nD) (t : Fin cfg2.N) (b : Row 128)
    (hb : V c main_v3 = shapeCast S1x128 b shapeCasts_S128_S1x128) (bₒ : Row 64)
    (hbₒ : V c main_v5 = shapeCast S1x64 bₒ shapeCasts_S64_S1x64) :
    (dat2 V c).flushed 8 t = ((cfg2.win 8).blk t).view.read (Elt Ideal)
      (affine (reluAffine (V c main_v2_1) (V c main_v2_0) b) (V c main_arg8) bₒ) := by
  show (cfg2.win 8).cut (grid2.coords t) ((dat2 V c).after 8 t) = _
  rw [after2_8]
  unfold out2_8
  rw [View.canon_unit_zero zero_offsets]
  simp only [View.ld_unit_zero (S := S1000x10000) zero_offsets, View.ld_unit_zero (S := S10000x128) zero_offsets,
    View.ld_unit_zero (S := S1x128) zero_offsets, View.ld_unit_zero (S := S128x64) zero_offsets,
    View.ld_unit_zero (S := S1x64) zero_offsets]
  rw [blk2_support V c t, blk2_bias V c t, blk2_weight_b V c t, blk2_bias_b V c t, hb, hbₒ, pay_head_b]
  funext j
  have hj0 : (j 0).val < 1000 := (j 0).isLt
  have hj1 : (j 1).val < 64 := (j 1).isLt
  have ht : t.val < 10 := t.isLt
  obtain ⟨-, -, -, -, -, -, -, -, -, -, -, -, -, -, -, -, e0, e1⟩ := idx2 t
  have hemb : ((cfg2.win 8).blk t).view.emb j
      = ix2 (⟨t.val * 1000 + (j 0).val, by omega⟩ : Fin 10000) (⟨(j 1).val, hj1⟩ : Fin 64) := by
    funext a; apply Fin.ext
    match a with
    | ⟨0, _⟩ => show win2_8.index t (0 : Fin 2) * 1000 + 1 * (j 0).val = t.val * 1000 + (j 0).val; omega
    | ⟨1, _⟩ => show win2_8.index t (1 : Fin 2) * 64 + 1 * (j 1).val = (j 1).val; omega
  show affine (reluAffine (iblk2 V c 0 t) (V c main_v2_0) b) (V c main_arg8) bₒ
      (ix2 (⟨(j 0).val, hj0⟩ : Fin 1000) (⟨(j 1).val, hj1⟩ : Fin 64))
    = affine (reluAffine (V c main_v2_1) (V c main_v2_0) b) (V c main_arg8) bₒ (((cfg2.win 8).blk t).view.emb j)
  rw [hemb]
  refine affine_congr _ _ _ _ _ _ (fun k => ?_) _
  refine reluAffine_congr _ _ _ _ _ _ (fun k' => ?_) k
  exact rows2_apply V c t _ k' _

/-- An index of the second result is in point `t`'s block iff each coordinate is in the block's range. -/
theorem mem_blk_head_b (t : Fin cfg2.N) (i : S10000x64.Idx) :
    i ∈ ((cfg2.win 8).blk t).view.set ↔ ∀ a : Fin 2, win2_8.index t a * S1000x64.size a ≤ (i a).val
      ∧ (i a).val < win2_8.index t a * S1000x64.size a + S1000x64.size a := by
  show i ∈ ((View.whole main_v6_1).slice (win2_8.rect t)).set ↔ _
  rw [View.set_slice_whole, Rect.mem_set_unit]
  exact Iff.rfl

/-- Row `r` of the second result is in the block of point `r / 1000`. -/
theorem cover_head_b (i : S10000x64.Idx) :
    ∃ t : Fin cfg2.N, (cfg2.win 8).flush t = true ∧ i ∈ ((cfg2.win 8).blk t).view.set := by
  have hi0 : (i 0).val < 10000 := (i 0).isLt
  have hi1 : (i 1).val < 64 := (i 1).isLt
  have ht : (i 0).val / 1000 < 10 := by omega
  refine ⟨⟨(i 0).val / 1000, ht⟩, flush2_8 _, ?_⟩
  rw [mem_blk_head_b]
  obtain ⟨-, -, -, -, -, -, -, -, -, -, -, -, -, -, -, -, e0, e1⟩ := idx2 ⟨(i 0).val / 1000, ht⟩
  have e0' : win2_8.index ⟨(i 0).val / 1000, ht⟩ (0 : Fin 2) = (i 0).val / 1000 := e0
  intro a
  match a with
  | ⟨0, _⟩ =>
    show win2_8.index ⟨(i 0).val / 1000, ht⟩ (0 : Fin 2) * 1000 ≤ (i 0).val
      ∧ (i 0).val < win2_8.index ⟨(i 0).val / 1000, ht⟩ (0 : Fin 2) * 1000 + 1000
    omega
  | ⟨1, _⟩ =>
    show win2_8.index ⟨(i 0).val / 1000, ht⟩ (1 : Fin 2) * 64 ≤ (i 1).val
      ∧ (i 1).val < win2_8.index ⟨(i 0).val / 1000, ht⟩ (1 : Fin 2) * 64 + 64
    omega

/-- THE REGION'S SECOND RESULT: the array ends holding the head `max (adj · s + b) 0 · W_b + b_b` of the arrays as
    the region found them. -/
theorem arr_head_b (c : Dev nD) (b : Row 128) (hb : V c main_v3 = shapeCast S1x128 b shapeCasts_S128_S1x128)
    (bₒ : Row 64) (hbₒ : V c main_v5 = shapeCast S1x64 bₒ shapeCasts_S64_S1x64) :
    (dat2 V c).arrAt 8 cfg2.N = affine (reluAffine (V c main_v2_1) (V c main_v2_0) b) (V c main_arg8) bₒ :=
  (dat2 V c).arrAt_eq_of_cover 8 _ (fun t _ => flushed_head_b V c t b hb bₒ hbₒ) cover_head_b

end Cert.KernelIdeal.Bridge

end
-- ==== Proof.KernelValue.lean ====
/-
  The idealized kernel program's two results are the encoder's two heads.

  The program runs three regions with a few host reshapes between them. Following the buffer contents from one
  boundary to the next:
  * the first region leaves `x · W₁` in its result array and touches nothing else;
  * a reshape lays the first bias out as a `[1, 128]` row;
  * the second region, finding those, leaves `max (adj · (x · W₁) + b₁) 0 · W₂` in its first result array and the
    adjacency again in its second;
  * three reshapes lay the other biases out as rows;
  * the third region, finding those, leaves the two heads `max (adj · s₂ + b₂) 0 · Wₒ + bₒ` in the program's results.
  An argument array is never written: at every boundary it holds what it was launched with.
-/
import proofs.«147340_g9328668967786_cont_9to1c4b_67_14_alg».proof.Proof.RunNamed
import proofs.«147340_g9328668967786_cont_9to1c4b_67_14_alg».proof.Proof.Region0
import proofs.«147340_g9328668967786_cont_9to1c4b_67_14_alg».proof.Proof.Region1
import proofs.«147340_g9328668967786_cont_9to1c4b_67_14_alg».proof.Proof.Region2
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.StableHlo
open Cert.DenseLayer Cert.BiasLayer Cert.Encoder

variable (m : (ℓ : Loc nD τ sig) → Buf (Elt Ideal) ℓ) (ρ : Dev nD → PrngReg)

/-! ## Buffers a stretch of reshapes does not write -/

/-- The reshape before the second region writes only the first bias row. -/
theorem W2_of_ne (c : Dev nD) (b : Ref sig .tc) (h : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne h))

/-- The three reshapes before the third region write only the three bias rows. -/
theorem W4_of_ne (c : Dev nD) (b : Ref sig .tc) (h3 : b ≠ main_v3) (h4 : b ≠ main_v4) (h5 : b ≠ main_v5) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne h3, StableHlo.devRef_ne_of_ne h4, StableHlo.devRef_ne_of_ne h5⟩))

/-! ## An argument that no earlier region stages keeps its launch contents -/

theorem W1_arg (c : Dev nD) (b : Ref sig .tc) (h0 : ∀ w, Pipeline.arrRef spec0 w ≠ b) :
    W1 m ρ c (Proc.devRef .tc b) = m ((c : Thread nD τ).loc b) :=
  W1_of_ne m ρ c b h0

theorem W2_arg (c : Dev nD) (b : Ref sig .tc) (h0 : ∀ w, Pipeline.arrRef spec0 w ≠ b) (hv : b ≠ main_v1) :
    W2 m ρ c (Proc.devRef .tc b) = m ((c : Thread nD τ).loc b) :=
  (W2_of_ne m ρ c b hv).trans (W1_arg m ρ c b h0)

theorem W3_arg (c : Dev nD) (b : Ref sig .tc) (h0 : ∀ w, Pipeline.arrRef spec0 w ≠ b) (hv : b ≠ main_v1)
    (h1 : ∀ w, Pipeline.arrRef spec1 w ≠ b) :
    W3 m ρ c (Proc.devRef .tc b) = m ((c : Thread nD τ).loc b) :=
  (W3_of_ne m ρ c b h1).trans (W2_arg m ρ c b h0 hv)

theorem W4_arg (c : Dev nD) (b : Ref sig .tc) (h0 : ∀ w, Pipeline.arrRef spec0 w ≠ b) (hv : b ≠ main_v1)
    (h1 : ∀ w, Pipeline.arrRef spec1 w ≠ b) (h3 : b ≠ main_v3) (h4 : b ≠ main_v4) (h5 : b ≠ main_v5) :
    W4 m ρ c (Proc.devRef .tc b) = m ((c : Thread nD τ).loc b) :=
  (W4_of_ne m ρ c b h3 h4 h5).trans (W3_arg m ρ c b h0 hv h1)

/-! ## The bias rows -/

/-- Entering the second region, the first bias row is the cast of the first bias vector. -/
theorem W2_bias (c : Dev nD) :
    W2 m ρ c (Proc.devRef .tc main_v1)
      = shapeCast S1x128 (m ((c : Thread nD τ).loc main_arg3)) shapeCasts_S128_S1x128 := by
  show StableHlo.after hostOps1 (W1 m ρ c) (Proc.devRef .tc main_v1) = _
  after_results
  rw [W1_arg m ρ c main_arg3 (by decide)]
  rfl

/-- Entering the third region, the hidden layer's bias row is the cast of the second bias vector. -/
theorem W4_bias (c : Dev nD) :
    W4 m ρ c (Proc.devRef .tc main_v3)
      = shapeCast S1x128 (m ((c : Thread nD τ).loc main_arg5)) shapeCasts_S128_S1x128 := by
  show StableHlo.after hostOps2 (W3 m ρ c) (Proc.devRef .tc main_v3) = _
  after_results
  rw [W3_arg m ρ c main_arg5 (by decide) (by decide) (by decide)]
  rfl

/-- … the first head's bias row the cast of its bias vector. -/
theorem W4_bias_a (c : Dev nD) :
    W4 m ρ c (Proc.devRef .tc main_v4)
      = shapeCast S1x64 (m ((c : Thread nD τ).loc main_arg7)) shapeCasts_S64_S1x64 := by
  show StableHlo.after hostOps2 (W3 m ρ c) (Proc.devRef .tc main_v4) = _
  after_results
  rw [W3_arg m ρ c main_arg7 (by decide) (by decide) (by decide)]
  rfl

/-- … and the second head's bias row the cast of its bias vector. -/
theorem W4_bias_b (c : Dev nD) :
    W4 m ρ c (Proc.devRef .tc main_v5)
      = shapeCast S1x64 (m ((c : Thread nD τ).loc main_arg9)) shapeCasts_S64_S1x64 := by
  show StableHlo.after hostOps2 (W3 m ρ c) (Proc.devRef .tc main_v5) = _
  after_results
  rw [W3_arg m ρ c main_arg9 (by decide) (by decide) (by decide)]
  rfl

/-! ## The regions' results, boundary by boundary -/

/-- After the first region its result array holds `x · W₁`. -/
theorem W1_support (c : Dev nD) :
    W1 m ρ c (Proc.devRef .tc main_v0)
      = product (m ((c : Thread nD τ).loc main_arg0)) (m ((c : Thread nD τ).loc main_arg2)) :=
  (W1_arr m ρ c 2).trans (arr_support (V0 m ρ) c)

/-- After the second region its first result array holds `max (adj · (x · W₁) + b₁) 0 · W₂`. -/
theorem W3_support (c : Dev nD) :
    W3 m ρ c (Proc.devRef .tc main_v2_0)
      = support₂ (m ((c : Thread nD τ).loc main_arg0)) (m ((c : Thread nD τ).loc main_arg1))
          (m ((c : Thread nD τ).loc main_arg2)) (m ((c : Thread nD τ).loc main_arg3))
          (m ((c : Thread nD τ).loc main_arg4)) := by
  refine (W3_arr m ρ c 4).trans ((arr_layer1 (V2 m ρ) c _ (W2_bias m ρ c)).trans ?_)
  show product (reluAffine (W2 m ρ c (Proc.devRef .tc main_arg1)) (W2 m ρ c (Proc.devRef .tc main_v0))
      (m ((c : Thread nD τ).loc main_arg3))) (W2 m ρ c (Proc.devRef .tc main_arg4)) = _
  rw [W2_arg m ρ c main_arg1 (by decide) (by decide), W2_of_ne m ρ c main_v0 (by decide), W1_support,
    W2_arg m ρ c main_arg4 (by decide) (by decide)]
  rfl

/-- After the second region its second result array holds the adjacency. -/
theorem W3_adjacency (c : Dev nD) :
    W3 m ρ c (Proc.devRef .tc main_v2_1) = m ((c : Thread nD τ).loc main_arg1) := by
  refine (W3_arr m ρ c 5).trans ((arr_copy (V2 m ρ) c).trans ?_)
  exact W2_arg m ρ c main_arg1 (by decide) (by decide)

/-- After the third region the program's first result holds the first head. -/
theorem W5_head_a (c : Dev nD) :
    W5 m ρ c (Proc.devRef .tc main_v6_0)
      = head (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  refine (W5_arr m ρ c 7).trans ((arr_head_a (V4 m ρ) c _ (W4_bias m ρ c) _ (W4_bias_a m ρ c)).trans ?_)
  show affine (reluAffine (W4 m ρ c (Proc.devRef .tc main_v2_1)) (W4 m ρ c (Proc.devRef .tc main_v2_0))
      (m ((c : Thread nD τ).loc main_arg5))) (W4 m ρ c (Proc.devRef .tc main_arg6))
      (m ((c : Thread nD τ).loc main_arg7)) = _
  rw [W4_of_ne m ρ c main_v2_1 (by decide) (by decide) (by decide), W3_adjacency,
    W4_of_ne m ρ c main_v2_0 (by decide) (by decide) (by decide), W3_support,
    W4_arg m ρ c main_arg6 (by decide) (by decide) (by decide) (by decide) (by decide) (by decide)]
  rfl

/-- After the third region the program's second result holds the second head. -/
theorem W5_head_b (c : Dev nD) :
    W5 m ρ c (Proc.devRef .tc main_v6_1)
      = head (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg8)) (m ((c : Thread nD τ).loc main_arg9)) := by
  refine (W5_arr m ρ c 8).trans ((arr_head_b (V4 m ρ) c _ (W4_bias m ρ c) _ (W4_bias_b m ρ c)).trans ?_)
  show affine (reluAffine (W4 m ρ c (Proc.devRef .tc main_v2_1)) (W4 m ρ c (Proc.devRef .tc main_v2_0))
      (m ((c : Thread nD τ).loc main_arg5))) (W4 m ρ c (Proc.devRef .tc main_arg8))
      (m ((c : Thread nD τ).loc main_arg9)) = _
  rw [W4_of_ne m ρ c main_v2_1 (by decide) (by decide) (by decide), W3_adjacency,
    W4_of_ne m ρ c main_v2_0 (by decide) (by decide) (by decide), W3_support,
    W4_arg m ρ c main_arg8 (by decide) (by decide) (by decide) (by decide) (by decide) (by decide)]
  rfl

/-! ## The run -/

/-- Every weakly fair execution of the idealized kernel program terminates with the two heads of its arguments in
    its two results, and the arguments unchanged. -/
theorem run : θ_run defs (onTc (τ := τ) (main (F := Ideal))) ⟨m, fun _ => 0, ρ⟩ (fun r => ∀ c : Dev nD,
      r.2.mem ((c.tc : Thread nD τ).loc main_v6_0)
        = head (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
      ∧ r.2.mem ((c.tc : Thread nD τ).loc main_v6_1)
        = head (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W5_head_a m ρ c), (h c).2.1.trans (W5_head_b m ρ c), (h c).2.2⟩)
    (Cert.KernelIdeal.GenRun.run_named m ρ)

end Cert.KernelIdeal.Bridge

end
-- ==== Proof.RefValue.lean ====
/-
  The reference program's two results are the encoder's two heads.

  The reference computes, on the host, `x · W₁`, then `adj` times that plus `b₁` laid over the rows, clamped at zero;
  the same again with `W₂` and `b₂` over the first hidden layer; and two output heads `hidden₂ · W + b`. Each
  `dot_general` contracts the left operand's second axis with the right operand's first, so it is the plain product;
  each bias is laid over the rows by two `broadcast_in_dim`s; the zero it clamps against is a splat scalar constant.
  Reading the composed term from the inside out, layer by layer, gives `Cert.Encoder.head` of the arguments.
-/
import proofs.«147340_g9328668967786_cont_9to1c4b_67_14_alg».proof.Proof.Gen.ReferenceIdeal.Run
import proofs.«147340_g9328668967786_cont_9to1c4b_67_14_alg».proof.Proof.Spec

noncomputable section

namespace Cert.ReferenceIdeal.RefValue

open Cert.ReferenceIdeal Cert.ReferenceIdeal.Gen Idealize.ShloMosaic Idealize.ShloMosaic.ValueIdx
open Cert.DenseLayer Cert.BiasLayer Cert.Encoder

/-- `[10000, 128] × [128, 128]`: a plain product. -/
theorem plain_feat : PlainDot dot_S10000x128_S128x128_S10000x128_1_0_0_1_n_n :=
  plainDot_of_axes _ rfl rfl rfl rfl rfl rfl

/-- `[10000, 10000] × [10000, 128]`: a plain product. -/
theorem plain_adj : PlainDot dot_S10000x10000_S10000x128_S10000x128_1_0_0_1_n_n :=
  plainDot_of_axes _ rfl rfl rfl rfl rfl rfl

/-- `[10000, 128] × [128, 64]`: a plain product. -/
theorem plain_head : PlainDot dot_S10000x128_S128x64_S10000x64_1_0_0_1_n_n :=
  plainDot_of_axes _ rfl rfl rfl rfl rfl rfl

/-- The reference's second hidden layer, as the host spells it, is `hidden₂` of the arguments. -/
theorem hidden₂_eq (x : FVec Ideal S10000x128 .f32) (adj : FVec Ideal S10000x10000 .f32) (W₁ : FVec Ideal S128x128 .f32)
    (b₁ : FVec Ideal S128 .f32) (W₂ : FVec Ideal S128x128 .f32) (b₂ : FVec Ideal S128 .f32) :
    maximumf (addf (Host.dotGeneral dot_S10000x10000_S10000x128_S10000x128_1_0_0_1_n_n none adj
        (Host.dotGeneral dot_S10000x128_S128x128_S10000x128_1_0_0_1_n_n none
          (maximumf (addf (Host.dotGeneral dot_S10000x10000_S10000x128_S10000x128_1_0_0_1_n_n none adj
              (Host.dotGeneral dot_S10000x128_S128x128_S10000x128_1_0_0_1_n_n none x W₁))
            (broadcastInDim S10000x128 ![0, 1] bcast_S1x128_S10000x128_0_1 (broadcastInDim S1x128 ![1] bcast_S128_S1x128_1 b₁)))
            (broadcastInDim S10000x128 ![] bcast_S_S10000x128 (constant (F := Ideal) S_ .f32 0x00000000#32)))
          W₂))
        (broadcastInDim S10000x128 ![0, 1] bcast_S1x128_S10000x128_0_1 (broadcastInDim S1x128 ![1] bcast_S128_S1x128_1 b₂)))
        (broadcastInDim S10000x128 ![] bcast_S_S10000x128 (constant (F := Ideal) S_ .f32 0x00000000#32))
      = hidden₂ x adj W₁ b₁ W₂ b₂ := by
  rw [host_product_eq x W₁ plain_feat none,
    host_reluAffine_eq adj (product x W₁) b₁ plain_adj none bcast_S128_S1x128_1 bcast_S1x128_S10000x128_0_1 bcast_S_S10000x128,
    host_product_eq (reluAffine adj (product x W₁) b₁) W₂ plain_feat none,
    host_reluAffine_eq adj (product (reluAffine adj (product x W₁) b₁) W₂) b₂ plain_adj none bcast_S128_S1x128_1
      bcast_S1x128_S10000x128_0_1 bcast_S_S10000x128]
  rfl

/-- An output head over it, as the host spells it, is `head` of the arguments. -/
theorem head_eq (x : FVec Ideal S10000x128 .f32) (adj : FVec Ideal S10000x10000 .f32) (W₁ : FVec Ideal S128x128 .f32)
    (b₁ : FVec Ideal S128 .f32) (W₂ : FVec Ideal S128x128 .f32) (b₂ : FVec Ideal S128 .f32)
    (Wₒ : FVec Ideal S128x64 .f32) (bₒ : FVec Ideal S64 .f32) :
    addf (Host.dotGeneral dot_S10000x128_S128x64_S10000x64_1_0_0_1_n_n none
        (maximumf (addf (Host.dotGeneral dot_S10000x10000_S10000x128_S10000x128_1_0_0_1_n_n none adj
        (Host.dotGeneral dot_S10000x128_S128x128_S10000x128_1_0_0_1_n_n none
          (maximumf (addf (Host.dotGeneral dot_S10000x10000_S10000x128_S10000x128_1_0_0_1_n_n none adj
              (Host.dotGeneral dot_S10000x128_S128x128_S10000x128_1_0_0_1_n_n none x W₁))
            (broadcastInDim S10000x128 ![0, 1] bcast_S1x128_S10000x128_0_1 (broadcastInDim S1x128 ![1] bcast_S128_S1x128_1 b₁)))
            (broadcastInDim S10000x128 ![] bcast_S_S10000x128 (constant (F := Ideal) S_ .f32 0x00000000#32)))
          W₂))
        (broadcastInDim S10000x128 ![0, 1] bcast_S1x128_S10000x128_0_1 (broadcastInDim S1x128 ![1] bcast_S128_S1x128_1 b₂)))
        (broadcastInDim S10000x128 ![] bcast_S_S10000x128 (constant (F := Ideal) S_ .f32 0x00000000#32))) Wₒ)
        (broadcastInDim S10000x64 ![0, 1] bcast_S1x64_S10000x64_0_1 (broadcastInDim S1x64 ![1] bcast_S64_S1x64_1 bₒ))
      = head x adj W₁ b₁ W₂ b₂ Wₒ bₒ := by
  rw [hidden₂_eq x adj W₁ b₁ W₂ b₂,
    host_affine_eq (hidden₂ x adj W₁ b₁ W₂ b₂) Wₒ bₒ plain_head none bcast_S64_S1x64_1 bcast_S1x64_S10000x64_0_1]
  rfl

end Cert.ReferenceIdeal.RefValue

end
-- ==== Proof.lean ====
/-
  A two-layer graph-convolution encoder with a dense adjacency, three kernel regions against a host reference.

  With node features `x`, adjacency `adj`, and the weights and biases of two hidden layers and two output heads, both
  programs compute, at the ideal values,

    hidden₁ = max (adj · (x · W₁) + b₁) 0,   hidden₂ = max (adj · (hidden₁ · W₂) + b₂) 0,
    mean = hidden₂ · W_μ + b_μ,   log-variance = hidden₂ · W_σ + b_σ,

  with the same grouping of the products. The kernel program computes `x · W₁` in one region; then, 400 rows of the
  adjacency at a time, `hidden₁ · W₂` together with a copy of those rows in a narrower float format; then, 1000 rows
  of that copy at a time, the two heads. At the ideal values a change of float format is the identity, so the copy is
  the adjacency, and an entry of a layer depends on the adjacency only through one of its rows, so working block of
  rows by block of rows gives the entries of the whole-matrix layers (`Cert.Encoder`). No law of arithmetic beyond
  that is used, and the precondition is not opened.

  The three frames: the two kernel programs' are the generated frame certificates; the reference's is its generated
  run with the results dropped. The idealization rewrote no operation. The value claim sets the kernel program's run
  with its results named (`Cert.KernelIdeal.Bridge.run`) beside the reference's run read as the same two heads
  (`Cert.ReferenceIdeal.RefValue.head_eq`).
-/
import proofs.«147340_g9328668967786_cont_9to1c4b_67_14_alg».proof.Defs
import proofs.«147340_g9328668967786_cont_9to1c4b_67_14_alg».proof.Proof.Gen.Kernel
import proofs.«147340_g9328668967786_cont_9to1c4b_67_14_alg».proof.Proof.Gen.Kernel.Frame
import proofs.«147340_g9328668967786_cont_9to1c4b_67_14_alg».proof.Proof.Gen.KernelIdeal
import proofs.«147340_g9328668967786_cont_9to1c4b_67_14_alg».proof.Proof.Gen.KernelIdeal.Frame
import proofs.«147340_g9328668967786_cont_9to1c4b_67_14_alg».proof.Proof.Gen.ReferenceIdeal
import proofs.«147340_g9328668967786_cont_9to1c4b_67_14_alg».proof.Proof.Gen.Pre_finite_inputs
import proofs.«147340_g9328668967786_cont_9to1c4b_67_14_alg».proof.Proof.Gen.ReferenceIdeal.Run
import proofs.«147340_g9328668967786_cont_9to1c4b_67_14_alg».proof.Proof.KernelValue
import proofs.«147340_g9328668967786_cont_9to1c4b_67_14_alg».proof.Proof.RefValue
import Idealize.ShloMosaic.Adequacy
import Idealize.ShloMosaic.Init

noncomputable section

namespace Cert.Proof

open Idealize.ShloMosaic Idealize.ShloMosaic.TcCoe Idealize.SL.Sem Cert.Encoder

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the encoder's two heads of their (agreeing) arguments in their two results. -/
theorem algebraic : Cert.algebraic_KernelIdeal_ReferenceIdeal := by
  intro m ρ m' ρ' _ hagree
  refine ⟨_, _, Cert.KernelIdeal.Bridge.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.RefValue.head_eq, a0, a1, a2, a3, a4, a5, a6, a7]
  · obtain ⟨a0, a1, a2, a3, a4, a5, a6, a7, a8, a9⟩ := hagree c
    rw [Cert.ReferenceIdeal.RefValue.head_eq, a0, a1, a2, a3, a4, a5, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
